-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x64x2048 : Shape := ⟨4, ![2, 16, 64, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x16x64x2048 : S_.BroadcastsInDim S2x16x64x2048 (![] : Fin 0 → Fin S2x16x64x2048.rank)
  reducesTo_S2x16x64x2048_S_d0_1_2_3 : S2x16x64x2048.ReducesTo [0, 1, 2, 3] S_

variable [Facts]

def fn {F : FTy → Type} [FloatOps F] (main_arg0 : FVec F S2x16x2048x64 .f32) (main_arg1 : FVec F S2x16x64x2048 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x64x2048 .f32 := Host.absf main_arg1
  let main_cst_0 : FVec F S_ .f32 := constant S_ .f32 0x7F800000#32
  let main_v5 : FVec F S2x16x64x2048 .f32 := broadcastInDim S2x16x64x2048 ![] bcast_S_S2x16x64x2048 main_cst_0
  let main_v6 : IVec S2x16x64x2048 1 := cmpf .olt main_v4 main_v5
  let main_c_1 : IVec S_ 1 := constantI S_ 1 1#1
  let main_v7 : IVec S_ 1 := (fun x v => Host.reduce IntOp.andi x v reducesTo_S2x16x64x2048_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x64x2048 : Shape := ⟨4, ![2, 16, 64, 2048]⟩
abbrev S32x2048x64 : Shape := ⟨3, ![32, 2048, 64]⟩
abbrev S32x64x2048 : Shape := ⟨3, ![32, 64, 2048]⟩
abbrev S1x1024x64 : Shape := ⟨3, ![1, 1024, 64]⟩
abbrev S1x64x2048 : Shape := ⟨3, ![1, 64, 2048]⟩
abbrev S1x2048x64 : Shape := ⟨3, ![1, 2048, 64]⟩
abbrev S2048x65 : Shape := ⟨2, ![2048, 65]⟩
abbrev S2048x64 : Shape := ⟨2, ![2048, 64]⟩
abbrev S2048x1 : Shape := ⟨2, ![2048, 1]⟩
abbrev S1024x64 : Shape := ⟨2, ![1024, 64]⟩
abbrev S1024x65 : Shape := ⟨2, ![1024, 65]⟩
abbrev S1x64x512 : Shape := ⟨3, ![1, 64, 512]⟩
abbrev S64x512 : Shape := ⟨2, ![64, 512]⟩
abbrev S1024x512 : Shape := ⟨2, ![1024, 512]⟩
abbrev S512x65 : Shape := ⟨2, ![512, 65]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S2x16x2048x64, .f32⟩
  | .hbm, ⟨1, _⟩ => ⟨S2x16x64x2048, .f32⟩
  | .hbm, ⟨2, _⟩ => ⟨S2x16x2048x64, .f32⟩
  | .hbm, ⟨3, _⟩ => ⟨S32x2048x64, .f32⟩
  | .hbm, ⟨4, _⟩ => ⟨S32x64x2048, .f32⟩
  | .hbm, ⟨5, _⟩ => ⟨S32x2048x64, .f32⟩
  | .hbm, ⟨6, _⟩ => ⟨S32x2048x64, .f32⟩
  | .hbm, ⟨7, _⟩ => ⟨S2x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x64x2048, .f32⟩
  | .local _ .vmem, ⟨3, _⟩ => ⟨S1x64x2048, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | .local _ .vmem, ⟨8, _⟩ => ⟨S2048x65, .bf16⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

@[reducible] def k0_t1_loop : Scf.Loop 32 :=
  let c0_i32_4 : BitVec 32 := 0#32
  let c4_i32 : BitVec 32 := 4#32
  let v9 : BitVec 32 := Scalar.addi c0_i32_4 c4_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c512_i32 : BitVec 32 := 512#32
  let v18 : BitVec 32 := Scalar.muli arg7 c512_i32
  v18
def k0_off1 (k0_t1 : Fin k0_t1_loop.trips) : Fin 3 → Nat :=
  let c0_9 : Index := 0#32
  let c0_10 : Index := 0#32
  let c0_i32_4 : BitVec 32 := 0#32
  let c1_i32 : BitVec 32 := 1#32
  let arg7 : BitVec 32 := Scf.iv c0_i32_4 c1_i32 k0_t1
  let c512_i32 : BitVec 32 := 512#32
  let v18 : BitVec 32 := Scalar.muli arg7 c512_i32
  let v19 : BitVec 32 := v18
  let v20 : Index := Scalar.indexCast v19
  ![0, 0, v20.toNat]
def k0_off2 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c512_i32 : BitVec 32 := 512#32
  let v18 : BitVec 32 := Scalar.muli arg7 c512_i32
  let v19 : BitVec 32 := v18
  let v27 : Index := Scalar.indexCast v19
  let c0_12 : Index := 0#32
  ![v27.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x64_S32x2048x64 : S2x16x2048x64.ShapeCasts S32x2048x64
  shapeCasts_S2x16x64x2048_S32x64x2048 : S2x16x64x2048.ShapeCasts S32x64x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  concatenates_S2048x64_S2048x1_S2048x65_d1 : Shape.Concatenates [S2048x64, S2048x1] S2048x65 1
  inb_S2048x65_S2048x65_0_0 : ∀ a, (![0, 0] : Fin 2 → Nat) a + S2048x65.size a ≤ S2048x65.size a
  h_S2048x65 : 0 < S2048x65.numel
  shapeCasts_S2048x65_S2048x65 : S2048x65.ShapeCasts S2048x65
  packedbf16_S2048x65_S2048x65_0_0 : (Rect.unit (s := S2048x65) ![0, 0] S2048x65.size inb_S2048x65_S2048x65_0_0).PackedRows (EltTy.packing .bf16)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  h_S1x64x512 : 0 < S1x64x512.numel
  shapeCasts_S1x64x512_S64x512 : S1x64x512.ShapeCasts S64x512
  h_S512x65 : 0 < S512x65.numel
  slices_S1024x65_o0_0_S1024x64 : S1024x65.Slices ![0, 0] S1024x64
  slices_S1024x65_o0_64_S1024x1 : S1024x65.Slices ![0, 64] S1024x1
  broadcasts_S1024x1_S1024x64 : S1024x1.Broadcasts S1024x64
  shapeCasts_S1024x64_S1x1024x64 : S1024x64.ShapeCasts S1x1024x64
  shapeCasts_S32x2048x64_S2x16x2048x64 : S32x2048x64.ShapeCasts S2x16x2048x64
  dot_S1024x64_S64x512_S1024x512_1_0_0_1_n_n_wf : DotDims.WF S1024x64 S64x512 S1024x512 [1] [0] [0] [1] [] []
  dot_S1024x512_S512x65_S1024x65_1_0_0_1_n_n_wf : DotDims.WF S1024x512 S512x65 S1024x65 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x64x512.size a ≤ S1x64x2048.size a
  k0_off2_inb : ∀ k0_t1 : Fin k0_t1_loop.trips, ∀ a, (k0_off2 k0_t1) a + S512x65.size a ≤ S2048x65.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S32x64x2048.size a
  hwx0_1 : ∀ i : grid0.Coords, EltTy.bits .f32 = 32 ∨ (Rect.block (s := S32x64x2048) S1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)

variable [Facts₀]

def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x65_S1024x65_1_0_0_1_n_n : DotDims S1024x512 S512x65 S1024x65 where
  lhsContracting := [1]
  rhsContracting := [0]
  lhsNonContracting := [0]
  rhsNonContracting := [1]
  lhsBatch := []
  rhsBatch := []
  wf := dot_S1024x512_S512x65_S1024x65_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x64x2048, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S2x16x2048x2048, .f32⟩
  | .hbm, ⟨8, _⟩ => ⟨S2x16x2048x64, .f32⟩
  | .hbm, ⟨9, _⟩ => ⟨S_, .f32⟩
  | .hbm, ⟨10, _⟩ => ⟨S2x16x2048, .f32⟩
  | .hbm, ⟨11, _⟩ => ⟨S2x16x2048x1, .f32⟩
  | .hbm, ⟨12, _⟩ => ⟨S2x16x2048x64, .f32⟩
  | .hbm, ⟨13, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S2x16x2048x1_S2x16x2048x64_0_1_2_3 : S2x16x2048x1.BroadcastsInDim S2x16x2048x64 (![0, 1, 2, 3] : Fin 4 → Fin S2x16x2048x64.rank)
  dot_S2x16x2048x64_S2x16x64x2048_S2x16x2048x2048_3_2_2_3_01_01_wf : DotDims.WF S2x16x2048x64 S2x16x64x2048 S2x16x2048x2048 [3] [2] [2] [3] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x64x2048_S2x16x2048x2048_3_2_2_3_01_01 : DotDims S2x16x2048x64 S2x16x64x2048 S2x16x2048x2048 where
  lhsContracting := [3]
  rhsContracting := [2]
  lhsNonContracting := [2]
  rhsNonContracting := [3]
  lhsBatch := [0, 1]
  rhsBatch := [0, 1]
  wf := dot_S2x16x2048x64_S2x16x64x2048_S2x16x2048x2048_3_2_2_3_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibBlockedSum.lean ====
/-
  Sums cut into blocks.

  A sum over `n` terms, read in `B` blocks of `T` consecutive terms with `n ≤ B * T`, where the positions at or
  past `n` (the overhang of the last block) contribute the zero of the monoid.  The bookkeeping is done once on
  functions of a natural number: `ext0 g` extends `g : Fin n → α` by zero, the sum of `B` blocks of `T` is the sum
  over `range (B * T)` (`sum_blocks_range`), and the zero tail is dropped (`sum_range_ext0`).  `sum_blocks` is the
  statement over `Fin B` and `Fin T`; `sum_blocks_partial` / `sum_blocks_succ` are the partial sums over the first
  `k` blocks, the shape an induction over the block index wants.  Last, the masked product: a term whose first factor
  is masked to zero past `n` does not depend on its second factor there (`zero_mul` in the extended reals), so a
  blocked sum of masked products is the plain sum of products (`sum_blocks_masked_mul`).
-/
import Mathlib.Algebra.BigOperators.Fin
import Mathlib.Algebra.BigOperators.Group.Finset.Basic
import Mathlib.Data.EReal.Operations

open scoped BigOperators
open Finset

namespace Cert.LibBlockedSum

variable {α : Type*} [AddCommMonoid α]

/-- `g` extended by zero: `g ⟨i, _⟩` at `i < n`, zero from `n` on. -/
def ext0 {n : ℕ} (g : Fin n → α) (i : ℕ) : α := if h : i < n then g ⟨i, h⟩ else 0

/-- Below `n` the extension is `g`. -/
theorem ext0_of_lt {n : ℕ} (g : Fin n → α) {i : ℕ} (h : i < n) : ext0 g i = g ⟨i, h⟩ := dif_pos h

/-- From `n` on the extension is zero. -/
theorem ext0_of_le {n : ℕ} (g : Fin n → α) {i : ℕ} (h : n ≤ i) : ext0 g i = 0 := dif_neg (Nat.not_lt.mpr h)

/-- The extension at an index of `Fin n`. -/
theorem ext0_val {n : ℕ} (g : Fin n → α) (p : Fin n) : ext0 g p.val = g p := by
  rw [ext0_of_lt g p.isLt]

/-- One more block: the sum over `range ((k + 1) * T)` is the sum over `range (k * T)` plus block `k`. -/
theorem sum_range_succ_block (G : ℕ → α) (T k : ℕ) :
    ∑ i ∈ range ((k + 1) * T), G i = ∑ i ∈ range (k * T), G i + ∑ q ∈ range T, G (k * T + q) := by
  rw [Nat.succ_mul, sum_range_add]

/-- The sum of the first `k` blocks of `T` terms is the sum over `range (k * T)`. -/
theorem sum_blocks_range (G : ℕ → α) (T k : ℕ) :
    ∑ kk ∈ range k, ∑ q ∈ range T, G (kk * T + q) = ∑ i ∈ range (k * T), G i := by
  induction k with
  | zero => simp
  | succ k ih => rw [sum_range_succ, ih, sum_range_succ_block]

/-- A function that vanishes from `n` on has the same sum over any longer range. -/
theorem sum_range_of_zero_tail (G : ℕ → α) {n N : ℕ} (hN : n ≤ N) (hG : ∀ i, n ≤ i → G i = 0) :
    ∑ i ∈ range N, G i = ∑ i ∈ range n, G i := by
  obtain ⟨d, rfl⟩ := Nat.exists_eq_add_of_le hN
  rw [sum_range_add, sum_eq_zero (s := range d) (fun i _ => hG (n + i) (Nat.le_add_right n i)), add_zero]

/-- The extension by zero summed over a range that reaches `n` is the sum of `g`. -/
theorem sum_range_ext0 {n N : ℕ} (g : Fin n → α) (hN : n ≤ N) :
    ∑ i ∈ range N, ext0 g i = ∑ p : Fin n, g p := by
  rw [sum_range_of_zero_tail (ext0 g) hN (fun i hi => ext0_of_le g hi), Finset.sum_range]
  exact Finset.sum_congr rfl (fun p _ => ext0_val g p)

/-- The extension by zero summed over a range SHORT of `n` is the sum of `g` over the indices below the bound. -/
theorem sum_range_ext0_lt {n N : ℕ} (g : Fin n → α) (hN : N ≤ n) :
    ∑ i ∈ range N, ext0 g i = ∑ p ∈ univ.filter (fun p : Fin n => p.val < N), g p := by
  rw [Finset.sum_range, Finset.sum_filter]
  have h : ∀ i : Fin N, ext0 g i.val = g (Fin.castLE hN i) := fun i => ext0_of_lt g (lt_of_lt_of_le i.isLt hN)
  rw [Finset.sum_congr rfl (fun i _ => h i)]
  -- both sides are the sum of `ext0 g` cut at `N`, over `range n`
  have e1 : ∑ i : Fin N, g (Fin.castLE hN i) = ∑ i ∈ range N, ext0 g i := by
    rw [Finset.sum_range]; exact Finset.sum_congr rfl (fun i _ => (h i).symm)
  have e2 : ∑ p : Fin n, (if p.val < N then g p else 0) = ∑ i ∈ range n, (if i < N then ext0 g i else 0) := by
    rw [Finset.sum_range]; exact Finset.sum_congr rfl (fun p _ => by rw [ext0_val])
  rw [e1, e2]
  obtain ⟨d, rfl⟩ := Nat.exists_eq_add_of_le hN
  rw [sum_range_add]
  have z : ∑ x ∈ range d, (if N + x < N then ext0 g (N + x) else 0) = 0 :=
    sum_eq_zero (fun x _ => if_neg (by omega))
  rw [z, add_zero]
  exact Finset.sum_congr rfl (fun i hi => (if_pos (mem_range.mp hi)).symm)

/-- **A sum in blocks.**  With `n ≤ B * T`, the sum over `B` blocks of `T` lanes of the term at position
    `kk * T + q`, zero where that position is at or past `n`, is the sum of all `n` terms. -/
theorem sum_blocks {n B T : ℕ} (hn : n ≤ B * T) (g : Fin n → α) :
    ∑ kk : Fin B, ∑ q : Fin T, (if h : kk.val * T + q.val < n then g ⟨kk.val * T + q.val, h⟩ else 0)
      = ∑ p : Fin n, g p := by
  have h1 : ∀ kk : Fin B, ∑ q : Fin T, (if h : kk.val * T + q.val < n then g ⟨kk.val * T + q.val, h⟩ else 0)
      = ∑ q ∈ range T, ext0 g (kk.val * T + q) := fun kk => by
    rw [Finset.sum_range]; rfl
  rw [Finset.sum_congr rfl (fun kk _ => h1 kk),
    ← Finset.sum_range (fun kk => ∑ q ∈ range T, ext0 g (kk * T + q)), sum_blocks_range, sum_range_ext0 g hn]

/-- **The first `k` blocks.**  The partial sum over blocks `0 … k - 1` is the sum of the terms below `k * T` (and
    below `n`): the extension by zero summed over `range (k * T)`. -/
theorem sum_blocks_partial {n T : ℕ} (g : Fin n → α) (k : ℕ) :
    ∑ kk ∈ range k, ∑ q : Fin T, (if h : kk * T + q.val < n then g ⟨kk * T + q.val, h⟩ else 0)
      = ∑ i ∈ range (k * T), ext0 g i := by
  have h1 : ∀ kk : ℕ, ∑ q : Fin T, (if h : kk * T + q.val < n then g ⟨kk * T + q.val, h⟩ else 0)
      = ∑ q ∈ range T, ext0 g (kk * T + q) := fun kk => by
    rw [Finset.sum_range]; rfl
  rw [Finset.sum_congr rfl (fun kk _ => h1 kk), sum_blocks_range]

/-- **The induction step over the block index**: an accumulator that holds the terms below `k * T` and receives
    block `k` holds the terms below `(k + 1) * T`. -/
theorem sum_blocks_succ {n T : ℕ} (g : Fin n → α) (k : ℕ) (acc : α)
    (hacc : acc = ∑ i ∈ range (k * T), ext0 g i) :
    acc + ∑ q : Fin T, (if h : k * T + q.val < n then g ⟨k * T + q.val, h⟩ else 0)
      = ∑ i ∈ range ((k + 1) * T), ext0 g i := by
  have h1 : ∑ q : Fin T, (if h : k * T + q.val < n then g ⟨k * T + q.val, h⟩ else 0)
      = ∑ q ∈ range T, ext0 g (k * T + q) := by
    rw [Finset.sum_range]; rfl
  rw [hacc, h1, sum_range_succ_block]

/-- The accumulator before any block: the empty sum. -/
theorem sum_blocks_zero {n T : ℕ} (g : Fin n → α) : (0 : α) = ∑ i ∈ range (0 * T), ext0 g i := by
  simp

/-- After the last block (`n ≤ B * T`) the accumulator is the whole sum. -/
theorem sum_blocks_last {n B T : ℕ} (hn : n ≤ B * T) (g : Fin n → α) :
    ∑ i ∈ range (B * T), ext0 g i = ∑ p : Fin n, g p := sum_range_ext0 g hn

/-! ## Masked products in the extended reals -/

/-- In the extended reals zero times anything is zero: `0 * ⊤ = 0 * ⊥ = 0` by Mathlib's convention. -/
theorem ereal_zero_mul (d : EReal) : (0 : EReal) * d = 0 := zero_mul d

/-- A factor masked to zero makes the product zero whatever the other factor is. -/
theorem ereal_ite_zero_mul (c : Prop) [Decidable c] (a d : EReal) :
    (if c then a else 0) * d = if c then a * d else 0 := by
  split_ifs
  · rfl
  · exact zero_mul d

/-- The same with the mask as a dependent `if`. -/
theorem ereal_dite_zero_mul (c : Prop) [Decidable c] (a : c → EReal) (d : EReal) :
    (if h : c then a h else 0) * d = if h : c then a h * d else 0 := by
  split_ifs
  · rfl
  · exact zero_mul d

/-- **A blocked sum of masked products.**  With `n ≤ B * T`: the first factor is `a` at position `kk * T + q`,
    masked to zero at or past `n`; the second factor `d kk q` is ANY value past `n` and `w` at the position below
    `n`.  The blocked sum is `∑ₚ a p * w p`. -/
theorem sum_blocks_masked_mul {n B T : ℕ} (hn : n ≤ B * T) (a w : Fin n → EReal) (d : Fin B → Fin T → EReal)
    (hd : ∀ (kk : Fin B) (q : Fin T) (h : kk.val * T + q.val < n), d kk q = w ⟨kk.val * T + q.val, h⟩) :
    ∑ kk : Fin B, ∑ q : Fin T, (if h : kk.val * T + q.val < n then a ⟨kk.val * T + q.val, h⟩ else 0) * d kk q
      = ∑ p : Fin n, a p * w p := by
  rw [← sum_blocks hn (fun p => a p * w p)]
  refine Finset.sum_congr rfl (fun kk _ => Finset.sum_congr rfl (fun q _ => ?_))
  rw [ereal_dite_zero_mul]
  by_cases h : kk.val * T + q.val < n
  · rw [dif_pos h, dif_pos h, hd kk q h]
  · rw [dif_neg h, dif_neg h]

end Cert.LibBlockedSum
-- ==== Proof.AttnSpec.lean ====
/-
  Attention without max-subtraction, one query row against one head's keys and values, on the extended reals.

  The row's score against key `t` is the dot product over the 64 features; the weight of key `t` is the exponential
  of the score divided by 8 (the square root of the feature count).  The row of the result is the weighted sum of
  the value rows divided by the sum of the weights.

  Two arrangements of this one function are compared.  The first (`attnDirect`) is the textbook one: divide the
  finished score by 8, sum the weights from an initial zero.  The second (`attnBlocked`) scales every query
  feature by 1/8 BEFORE the dot product, appends a column of ones to the values so that the sum of the weights is
  column 64 of the same weighted sum, and accumulates that sum over the 2048 keys in four blocks of 512 from a
  zero accumulator.  They agree when the query row and the keys are finite: moving the factor 1/8 across the dot
  product is distributivity, which holds for real numbers (and fails at infinities); everything else — the order
  of the sum, the product with one, the zero start — holds on all extended reals.
-/
import Mathlib.Data.EReal.Operations
import Mathlib.Algebra.BigOperators.Fin
import Mathlib.Tactic.Ring
import Mathlib.Tactic.NormNum
import Idealize.ShloMosaic.PureOps.Ideal
import Idealize.ShloMosaic.PureOps.Ideal.Laws
import proofs.«406530_j63960652972223_3_alg».proof.Proof.LibBlockedSum

noncomputable section

open scoped BigOperators
open Finset
open Idealize.ShloMosaic

namespace Cert.AttnSpec

/-! ## The constants -/

/-- The f32 pattern of `0.125` denotes the real `1/8`. -/
theorem ofBits_eighth : Ideal.ofBits .f32 0x3E000000#32 = ((1 / 8 : ℝ) : EReal) := by
  simp [Ideal.ofBits, Ideal.ieee, -EReal.coe_mul]; norm_num

/-- The f32 pattern of `8.0` denotes the real `8`. -/
theorem ofBits_eight : Ideal.ofBits .f32 0x41000000#32 = ((8 : ℝ) : EReal) := by
  simp [Ideal.ofBits, Ideal.ieee, -EReal.coe_mul]; norm_num

/-- The bf16 pattern of `1.0` denotes `1`. -/
theorem ofBits_one_bf16 : Ideal.ofBits .bf16 0x3F80#16 = 1 := by
  simp [Ideal.ofBits, Ideal.ieee, -EReal.coe_mul]; norm_num

/-! ## Moving the scale across the dot product -/

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real factors, scaling each left factor by `1/8` before the dot product is dividing the dot product by `8`. -/
theorem scaled_dot_real {ι : Type*} [Fintype ι] (a b : ι → ℝ) :
    ∑ d, ((a d : EReal) * ((1 / 8 : ℝ) : EReal)) * (b d : EReal)
      = Ideal.div (∑ d, (a d : EReal) * (b d : EReal)) ((8 : ℝ) : EReal) := by
  rw [Ideal.div_coe (by norm_num : (8 : ℝ) ≠ 0)]
  simp only [← EReal.coe_mul, ← coe_sum]
  rw [Finset.sum_mul]
  exact congrArg _ (Finset.sum_congr rfl (fun d _ => by ring))

/-- An extended real that is neither infinity is the coercion of its real part. -/
def Fin' (x : EReal) : Prop := x ≠ ⊥ ∧ x ≠ ⊤

theorem Fin'.eq_coe {x : EReal} (h : Fin' x) : x = ((x.toReal : ℝ) : EReal) := (EReal.coe_toReal h.2 h.1).symm

/-- The same for finite extended reals. -/
theorem scaled_dot {ι : Type*} [Fintype ι] (a b : ι → EReal) (ha : ∀ d, Fin' (a d)) (hb : ∀ d, Fin' (b d)) :
    ∑ d, (a d * ((1 / 8 : ℝ) : EReal)) * b d = Ideal.div (∑ d, a d * b d) ((8 : ℝ) : EReal) := by
  obtain ⟨a', rfl⟩ : ∃ a' : ι → ℝ, a = fun d => ((a' d : ℝ) : EReal) :=
    ⟨fun d => (a d).toReal, funext fun d => (ha d).eq_coe⟩
  obtain ⟨b', rfl⟩ : ∃ b' : ι → ℝ, b = fun d => ((b' d : ℝ) : EReal) :=
    ⟨fun d => (b d).toReal, funext fun d => (hb d).eq_coe⟩
  exact scaled_dot_real a' b'

/-! ## One row of attention, two ways -/

section Row
variable (qrow : Fin 64 → EReal) (kh : Fin 64 → Fin 2048 → EReal) (vh : Fin 2048 → Fin 64 → EReal)

/-- The weight of key `t`: the exponential of the score divided by 8. -/
def wt (t : Fin 2048) : EReal := Ideal.exp (Ideal.div (∑ d, qrow d * kh d t) ((8 : ℝ) : EReal))

/-- The textbook row: the weighted sum of the values over the sum of the weights (summed from zero). -/
def attnDirect (c : Fin 64) : EReal :=
  Ideal.div (∑ t, wt qrow kh t * vh t c) (0 + ∑ t, wt qrow kh t)

/-- The weight with the query scaled first. -/
def wtScaled (t : Fin 2048) : EReal := Ideal.exp (∑ d, (qrow d * ((1 / 8 : ℝ) : EReal)) * kh d t)

/-- The values with a column of ones appended. -/
def vaug (t : Fin 2048) (c : Fin 65) : EReal := if h : c.val < 64 then vh t ⟨c.val, h⟩ else 1

/-- The accumulator after `k` blocks of 512 keys: the weighted sum of the augmented values over the keys below `k * 512`. -/
def accBlocks (k : ℕ) (c : Fin 65) : EReal :=
  ∑ i ∈ range (k * 512), Cert.LibBlockedSum.ext0 (fun t : Fin 2048 => wtScaled qrow kh t * vaug vh t c) i

/-- The blocked row: column `c` of the finished accumulator over its column 64. -/
def attnBlocked (c : Fin 64) : EReal :=
  Ideal.div (accBlocks qrow kh vh 4 ⟨c.val, by omega⟩) (accBlocks qrow kh vh 4 ⟨64, by omega⟩)

/-- Before any block the accumulator is zero. -/
theorem accBlocks_zero (c : Fin 65) : accBlocks qrow kh vh 0 c = 0 := by
  unfold accBlocks; simp

/-- One more block: the accumulator receives the weighted augmented values of the keys `k * 512 + j`. -/
theorem accBlocks_succ (k : ℕ) (hk : k < 4) (c : Fin 65) :
    accBlocks qrow kh vh k c
        + ∑ j : Fin 512, wtScaled qrow kh ⟨k * 512 + j.val, by omega⟩ * vaug vh ⟨k * 512 + j.val, by omega⟩ c
      = accBlocks qrow kh vh (k + 1) c := by
  unfold accBlocks
  rw [← Cert.LibBlockedSum.sum_blocks_succ (n := 2048) (T := 512) (fun t : Fin 2048 => wtScaled qrow kh t * vaug vh t c) k _ rfl]
  refine congrArg _ (Finset.sum_congr rfl (fun j _ => ?_))
  rw [dif_pos (by omega : k * 512 + j.val < 2048)]

/-- After the four blocks the accumulator is the sum over all keys. -/
theorem accBlocks_four (c : Fin 65) :
    accBlocks qrow kh vh 4 c = ∑ t : Fin 2048, wtScaled qrow kh t * vaug vh t c := by
  unfold accBlocks
  exact Cert.LibBlockedSum.sum_blocks_last (n := 2048) (B := 4) (T := 512) (by norm_num) _

/-- For a finite query row and finite keys the two weights agree. -/
theorem wtScaled_eq (hq : ∀ d, Fin' (qrow d)) (hk : ∀ d t, Fin' (kh d t)) (t : Fin 2048) :
    wtScaled qrow kh t = wt qrow kh t := by
  unfold wtScaled wt
  rw [scaled_dot qrow (fun d => kh d t) hq (fun d => hk d t)]

/-- **The two rows agree** for a finite query row and finite keys. -/
theorem attnBlocked_eq (hq : ∀ d, Fin' (qrow d)) (hk : ∀ d t, Fin' (kh d t)) (c : Fin 64) :
    attnBlocked qrow kh vh c = attnDirect qrow kh vh c := by
  unfold attnBlocked attnDirect
  rw [accBlocks_four, accBlocks_four, zero_add]
  congr 1
  · refine Finset.sum_congr rfl (fun t _ => ?_)
    rw [wtScaled_eq qrow kh hq hk t]
    unfold vaug; rw [dif_pos c.isLt]
  · refine Finset.sum_congr rfl (fun t _ => ?_)
    rw [wtScaled_eq qrow kh hq hk t]
    unfold vaug; rw [dif_neg (by simp), mul_one]

end Row

end Cert.AttnSpec

end
-- ==== Proof.AttnArray.lean ====
/-
  The attention of a whole batch of heads, as one function of the three argument arrays.

  `q` is [2, 16, 2048, 64] (batch, head, query row, feature), `k` is [2, 16, 64, 2048] (batch, head, feature, key)
  and `v` is [2, 16, 2048, 64] (batch, head, key, feature).  Entry (a, h, r, c) of the result is column `c` of the
  attention row of query row `r` of head (a, h) against that head's keys and values (`AttnSpec.attnDirect`).
-/
import Idealize.ShloMosaic.Lib.ValueIdx
import proofs.«406530_j63960652972223_3_alg».proof.Proof.AttnSpec

noncomputable section

open Idealize.ShloMosaic Idealize.ShloMosaic.ValueIdx

namespace Cert.AttnArray

/-- The shape of the queries, the values and the result. -/
abbrev SQ : Shape := ⟨4, ![2, 16, 2048, 64]⟩
/-- The shape of the keys (stored transposed: feature before key). -/
abbrev SK : Shape := ⟨4, ![2, 16, 64, 2048]⟩

/-- The result at batch `a`, head `h`, query row `r`, column `c`. -/
def attnAt (q : SQ.Idx → EReal) (k : SK.Idx → EReal) (v : SQ.Idx → EReal)
    (a : Fin 2) (h : Fin 16) (r : Fin 2048) (c : Fin 64) : EReal :=
  Cert.AttnSpec.attnDirect (fun d => q (ix4 a h r d)) (fun d t => k (ix4 a h d t)) (fun t c' => v (ix4 a h t c')) c

/-- The whole result array. -/
def attnArray (q : SQ.Idx → EReal) (k : SK.Idx → EReal) (v : SQ.Idx → EReal) : SQ.Idx → EReal :=
  fun i => attnAt q k v (i 0) (i 1) (i 2) (i 3)

theorem attnArray_apply (q : SQ.Idx → EReal) (k : SK.Idx → EReal) (v : SQ.Idx → EReal)
    (a : Fin 2) (h : Fin 16) (r : Fin 2048) (c : Fin 64) :
    attnArray q k v (ix4 a h r c) = attnAt q k v a h r c := rfl

end Cert.AttnArray

end
-- ==== Proof.AttnRef.lean ====
/-
  The reference program computes the attention array.

  Read one operation at a time, entry (a, h, r, c) of the reference's result is the quotient of
  `∑ₜ exp ((∑_d q[a,h,r,d] · k[a,h,d,t]) / 8) · v[a,h,t,c]` by `0 + ∑ₜ exp ((∑_d q[a,h,r,d] · k[a,h,d,t]) / 8)`:
  the two batched products contract the last axis of the left operand against axis 2 of the right one, the sum
  reduces the key axis from a zero start, and the two broadcasts copy the row's sum along the feature axis.  That
  is `AttnSpec.attnDirect` of the head's query row, keys and values, term for term.
-/
import proofs.«406530_j63960652972223_3_alg».proof.Proof.Gen.ReferenceIdeal.Read
import proofs.«406530_j63960652972223_3_alg».proof.Proof.AttnArray

noncomputable section

open Idealize.ShloMosaic Idealize.ShloMosaic.ValueIdx

namespace Cert.AttnRef

open Cert.ReferenceIdeal Cert.ReferenceIdeal.Read Cert.AttnArray

variable (x0 : (⟨S2x16x2048x64, .f32⟩ : BufTy).Contents (Elt Ideal)) (x1 : (⟨S2x16x64x2048, .f32⟩ : BufTy).Contents (Elt Ideal))
  (x2 : (⟨S2x16x2048x64, .f32⟩ : BufTy).Contents (Elt Ideal))

/-- The score of row (a, h, r) against key `t`: the first product's entry. -/
theorem score_apply (a : Fin 2) (h : Fin 16) (r : Fin 2048) (t : Fin 2048) :
    val_main_v0 (F := Ideal) x0 x1 (ix4 a h r t) = ∑ d : Fin 64, x0 (ix4 a h r d) * x1 (ix4 a h d t) := by
  rw [val_main_v0_apply]
  refine Finset.sum_congr rfl fun d _ => ?_
  have e1 : lidx_main_v0 (ix4 a h r t) d = ix4 a h r d :=
    funext fun e => Fin.ext (by match e with | ⟨0, _⟩ => rfl | ⟨1, _⟩ => rfl | ⟨2, _⟩ => rfl | ⟨3, _⟩ => rfl)
  have e2 : ridx_main_v0 (ix4 a h r t) d = ix4 a h d t :=
    funext fun e => Fin.ext (by match e with | ⟨0, _⟩ => rfl | ⟨1, _⟩ => rfl | ⟨2, _⟩ => rfl | ⟨3, _⟩ => rfl)
  rw [e1, e2]

/-- The weight of key `t` for row (a, h, r): the exponential of the score over 8. -/
theorem weight_apply (a : Fin 2) (h : Fin 16) (r : Fin 2048) (t : Fin 2048) :
    val_main_v3 (F := Ideal) x0 x1 (ix4 a h r t)
      = Cert.AttnSpec.wt (fun d => x0 (ix4 a h r d)) (fun d t' => x1 (ix4 a h d t')) t := by
  rw [val_main_v3_apply, val_main_v2_apply, score_apply, val_main_v1_apply, val_main_cst_apply]
  simp only [Ideal.hostUnary_exp_def, Ideal.hostDivf_def, Ideal.ofBits_def, Cert.AttnSpec.ofBits_eight]
  rfl

/-- **The reference's result is the attention array.** -/
theorem ref_eq : val_main_v8 (F := Ideal) x0 x1 x2 = attnArray x0 x1 x2 := by
  funext i
  obtain ⟨a, h, r, c, rfl⟩ : ∃ (a : Fin 2) (h : Fin 16) (r : Fin 2048) (c : Fin 64), i = ix4 a h r c :=
    ⟨i 0, i 1, i 2, i 3, eq_ix4 i⟩
  rw [attnArray_apply, val_main_v8_apply, val_main_v4_apply, val_main_v7_apply, val_main_v6_apply, val_main_v5_apply,
    val_main_cst_0_apply]
  have el : ∀ t : Fin 2048, lidx_main_v4 (ix4 a h r c) t = ix4 a h r t := fun t =>
    funext fun e => Fin.ext (by match e with | ⟨0, _⟩ => rfl | ⟨1, _⟩ => rfl | ⟨2, _⟩ => rfl | ⟨3, _⟩ => rfl)
  have er : ∀ t : Fin 2048, ridx_main_v4 (ix4 a h r c) t = ix4 a h t c := fun t =>
    funext fun e => Fin.ext (by match e with | ⟨0, _⟩ => rfl | ⟨1, _⟩ => rfl | ⟨2, _⟩ => rfl | ⟨3, _⟩ => rfl)
  have es : ∀ t : Fin 2048, idx_main_v5 (idx_main_v6 (idx_main_v7 (ix4 a h r c))) t = ix4 a h r t := fun t =>
    funext fun e => Fin.ext (by match e with | ⟨0, _⟩ => rfl | ⟨1, _⟩ => rfl | ⟨2, _⟩ => rfl | ⟨3, _⟩ => rfl)
  simp only [el, er, es, weight_apply, Ideal.hostDivf_def, Ideal.ofBits_def, Ideal.ofBits_zero_f32]
  rfl

end Cert.AttnRef

end
-- ==== Proof.BodyRun.lean ====
/-
  The kernel body as a pure function of the blocks it reads.

  At a grid point the body holds a block of 1024 query rows (`x0`), the head's keys (`x1`) and, in the scratch
  buffer, the head's values with a column of ones appended (`S`; stored by the body itself at the head's first
  point, found there at the second).  It runs over the keys in four chunks of 512: chunk `k` adds to the
  accumulator the product of the exponentiated scores of the chunk's keys with the chunk's rows of `S`
  (`chunkStep`); from a zero accumulator this gives `chunkAcc`.  The block it stores is the first 64 columns of the
  finished accumulator over its column 64 (`bodyOut`).

  Below, one chunk of the loop is read once: what a trip yields is the chunk's payload of the two rectangles it
  loads.  By induction over the trips the value the loop carries is `chunkAcc`, for any contents of the scratch
  buffer that read as `S`; and so each of the two control cases of the body leaves `bodyOut` in the output block,
  with `S` the augmented values it has just stored (first point of a head) or the scratch contents it found
  (second point).
-/
import proofs.«406530_j63960652972223_3_alg».proof.Proof.Gen.KernelIdeal.Frame
import Idealize.ShloMosaic.Lib.Pipeline.Value
import Idealize.ShloMosaic.Lib.Tactic

noncomputable section

open Idealize.ShloMosaic Idealize.ShloMosaic.TcCoe Idealize.ShloMosaic.Tactic Idealize.SL.Sem

namespace Cert.KernelIdeal.Body

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The keys chunk `k` loads: all 64 features of keys `512 k … 512 k + 511`. -/
abbrev kRect (k : Fin k0_t1_loop.trips) : Rect S1x64x2048 :=
  Rect.unit (s := S1x64x2048) (k0_off1 k) S1x64x512.size (k0_off1_inb k)
/-- The rows of the augmented values chunk `k` loads: rows `512 k … 512 k + 511`, all 65 columns. -/
abbrev sRect (k : Fin k0_t1_loop.trips) : Rect S2048x65 :=
  Rect.unit (s := S2048x65) (k0_off2 k) S512x65.size (k0_off2_inb k)

/-- One chunk: the accumulator plus the chunk's weights times the chunk's rows of the augmented values. -/
def chunkStep (x0 : Vec F S1x1024x64 .f32) (x1 : Vec F S1x64x2048 .f32) (S : Vec F S2048x65 .bf16)
    (k : Fin k0_t1_loop.trips) (acc : FVec F S1024x65 .f32) : FVec F S1024x65 .f32 :=
  k0_pay3 x0 acc (View.ld x1 (kRect k)) (View.ld S (sRect k))

/-- The accumulator before chunk `n`, from zero. -/
def chunkAcc (x0 : Vec F S1x1024x64 .f32) (x1 : Vec F S1x64x2048 .f32) (S : Vec F S2048x65 .bf16) :
    ℕ → FVec F S1024x65 .f32
  | 0 => k0_pay2
  | n + 1 => if h : n < k0_t1_loop.trips then chunkStep x0 x1 S ⟨n, h⟩ (chunkAcc x0 x1 S n) else chunkAcc x0 x1 S n

/-- The block the body stores: the finished accumulator's first 64 columns over its last. -/
def bodyOut (x0 : Vec F S1x1024x64 .f32) (x1 : Vec F S1x64x2048 .f32) (S : Vec F S2048x65 .bf16) :
    Vec F S1x1024x64 .f32 :=
  k0_pay4 (chunkAcc x0 x1 S k0_t1_loop.trips)

/-- What one trip of the loop yields: the chunk's payload of the carried value and of the two rectangles the trip
    loads, through whatever contents the two buffers hold. -/
theorem trip_eq (𝒱 : Variants) (c : Dev nD) (bd : Option 𝒱.V) (i : grid0.Coords) (arg2 : Memref sig .tc .vmem S1x1024x64 .f32) (harg2 : arg2.IsWhole) (arg3 : Memref sig .tc .vmem S1x64x2048 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x65 .bf16) (harg6 : arg6.IsWhole)
    (v3 : Vec F S1x1024x64 .f32) (X3 : BufTy.Contents (Elt F) arg3.view.ty) (X6 : BufTy.Contents (Elt F) arg6.view.ty)
    (k : Fin k0_t1_loop.trips) (acc : FVec F S1024x65 .f32) :
    tripR_k0_t1 (F := F) 𝒱 c bd i arg2 harg2 arg3 harg3 arg4 harg4 arg5 harg5 arg6 harg6 v3 X3 X6 k acc
      = k0_pay3 v3 acc (View.readAt (Elt F) arg3.view (kRect k).toLoadRect X3)
          (View.readAt (Elt F) arg6.view (sRect k).toLoadRect X6) := by
  unfold tripR_k0_t1 trip_k0_t1
  rfl

/-- The value the loop carries before trip `n` is `chunkAcc`, when the query block is read whole, the keys are held
    at `x1` and the scratch buffer's contents read as `S` through every rectangle. -/
theorem carried_eq (c : Dev nD) (i : grid0.Coords) (arg2 : Memref sig .tc .vmem S1x1024x64 .f32) (harg2 : arg2.IsWhole) (arg3 : Memref sig .tc .vmem S1x64x2048 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x65 .bf16) (harg6 : arg6.IsWhole)
    (x0 : Vec F S1x1024x64 .f32) (x1 : Vec F S1x64x2048 .f32) (S : Vec F S2048x65 .bf16)
    (X6 : BufTy.Contents (Elt F) arg6.view.ty)
    (hX6 : ∀ r : Rect S2048x65, View.readAt (Elt F) arg6.view r.toLoadRect X6 = View.ld S r) :
    ∀ n : ℕ, st_k0_t1 (F := F) Variants.none c none i arg2 harg2 arg3 harg3 arg4 harg4 arg5 harg5 arg6 harg6
        (View.readAt (Elt F) arg2.view (Rect.unit (s := S1x1024x64) ![0, 0, 0] S1x1024x64.size inb_S1x1024x64_S1x1024x64_0_0_0).toLoadRect (harg2.unread x0))
        (harg3.unread x1) X6 k0_pay2 n = chunkAcc x0 x1 S n
  | 0 => rfl
  | n + 1 => by
    rw [st_k0_t1.eq_2]
    unfold st_k0_t1Step
    rw [carried_eq c i arg2 harg2 arg3 harg3 arg4 harg4 arg5 harg5 arg6 harg6 x0 x1 S X6 hX6 n]
    by_cases h : n < k0_t1_loop.trips
    · rw [dif_pos h, trip_eq, hX6]
      simp only [View.readAt_eq_ld, harg2.read_unread, harg3.read_unread, View.ld_unit_zero (S := S1x1024x64) hz3]
      rw [chunkAcc.eq_2, dif_pos h]
      rfl
    · rw [dif_neg h, chunkAcc.eq_2, dif_neg h]

/-- The second point of a head: the scratch buffer is found holding `xs0`, and the body leaves `bodyOut` over it. -/
theorem out_B (c : Dev nD) (i : grid0.Coords) (arg2 : Memref sig .tc .vmem S1x1024x64 .f32) (harg2 : arg2.IsWhole) (arg3 : Memref sig .tc .vmem S1x64x2048 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x65 .bf16) (harg6 : arg6.IsWhole) (hc0 : ¬cond0_0 i)
    (x0 : Vec F S1x1024x64 .f32) (x1 : Vec F S1x64x2048 .f32) (x2 : Vec F S1x2048x64 .f32) (xs0 : Vec F S2048x65 .bf16) :
    out0_B_3 c i arg2 harg2 arg3 harg3 arg4 harg4 arg5 harg5 arg6 harg6 hc0 x0 x1 x2 xs0 = bodyOut x0 x1 xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero hz3]
  exact congrArg k0_pay4 (carried_eq c i arg2 harg2 arg3 harg3 arg4 harg4 arg5 harg5 arg6 harg6 x0 x1 xs0 (harg6.unread xs0)
    (fun r => by rw [View.readAt_eq_ld, harg6.read_unread]) _)

/-- The augmented values the first point of a head stores: the head's values with the column of ones. -/
theorem scratch_A (c : Dev nD) (i : grid0.Coords) (arg2 : Memref sig .tc .vmem S1x1024x64 .f32) (harg2 : arg2.IsWhole) (arg3 : Memref sig .tc .vmem S1x64x2048 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x65 .bf16) (harg6 : arg6.IsWhole) (hc0 : cond0_0 i)
    (x0 : Vec F S1x1024x64 .f32) (x1 : Vec F S1x64x2048 .f32) (x2 : Vec F S1x2048x64 .f32) :
    sout0_A_0 c i arg2 harg2 arg3 harg3 arg4 harg4 arg5 harg5 arg6 harg6 hc0 x0 x1 x2 = k0_pay1 x2 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg4.read_unread, View.ld_unit_zero (S := S1x2048x64) hz3]

/-- The first point of a head: the body stores the augmented values and then leaves `bodyOut` over them. -/
theorem out_A (c : Dev nD) (i : grid0.Coords) (arg2 : Memref sig .tc .vmem S1x1024x64 .f32) (harg2 : arg2.IsWhole) (arg3 : Memref sig .tc .vmem S1x64x2048 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x65 .bf16) (harg6 : arg6.IsWhole) (hc0 : cond0_0 i)
    (x0 : Vec F S1x1024x64 .f32) (x1 : Vec F S1x64x2048 .f32) (x2 : Vec F S1x2048x64 .f32) :
    out0_A_3 c i arg2 harg2 arg3 harg3 arg4 harg4 arg5 harg5 arg6 harg6 hc0 x0 x1 x2 = bodyOut x0 x1 (k0_pay1 x2) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz3]
  refine congrArg k0_pay4 (carried_eq c i arg2 harg2 arg3 harg3 arg4 harg4 arg5 harg5 arg6 harg6 x0 x1 (k0_pay1 x2) _ (fun r => ?_) _)
  rw [View.readAt_eq_ld, View.read_writes_junk_eq_canon, View.canon_unit_zero hz2]
  simp only [View.readAt_eq_ld, harg4.read_unread, View.ld_unit_zero (S := S1x2048x64) hz3]

end Cert.KernelIdeal.Body

end
-- ==== Proof.BodyValue.lean ====
/-
  The kernel body's block, entry by entry, on the extended reals.

  Read at the exact instance, where a change of float format is the identity:
  * the augmented values hold the head's value row `t` in columns 0 … 63 and the number one in column 64;
  * one chunk adds to accumulator entry (r, c') the sum, over the chunk's 512 keys `j`, of the exponential of
    `∑_d (x0[r, d] · 1/8) · keys[d, j]` times row `j`, column `c'` of the chunk's augmented values — both products
    are contractions of one axis into a zero accumulator;
  * the rectangles chunk `k` loads are keys `512 k + j` and rows `512 k + j`;
  * the stored entry (r, c) is accumulator entry (r, c) over accumulator entry (r, 64).
  So by induction over the chunks the accumulator is `AttnSpec.accBlocks` of the query row, the head's keys and the
  head's values, and the stored block is `AttnSpec.attnBlocked`.
-/
import proofs.«406530_j63960652972223_3_alg».proof.Proof.BodyRun
import proofs.«406530_j63960652972223_3_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx
open scoped BigOperators

namespace Cert.KernelIdeal.BodyValue

open Cert.KernelIdeal Cert.KernelIdeal.Gen Cert.KernelIdeal.Body Cert.AttnSpec

/-- The loop makes four trips. -/
theorem trips_eq : k0_t1_loop.trips = 4 := by decide

/-! ## The augmented values -/

/-- Row `t` of the augmented values: the value row in the first 64 columns, one in the last. -/
theorem aug_apply (x2 : Vec Ideal S1x2048x64 .f32) (t : Fin 2048) (c' : Fin 65) :
    k0_pay1 (F := Ideal) x2 (ix2 t c') = vaug (fun t c => x2 (ix3 (0 : Fin 1) t c)) t c' := by
  unfold k0_pay1 vaug
  rw [shapeCast_self]
  by_cases h : c'.val < 64
  · rw [dif_pos h]
    refine (concatenate_pair_apply_left (t := S2048x65) (s₁ := S2048x64) (s₂ := S2048x1) (1 : Fin 2) _ _
      concatenates_S2048x64_S2048x1_S2048x65_d1 (ix2 t c') rfl (ix2 t (⟨c'.val, h⟩ : Fin 64)) (fun b => ?_)).trans ?_
    · match b with
      | ⟨0, _⟩ => rfl
      | ⟨1, _⟩ => rfl
    · exact shapeCast_1ab_ab_apply x2 shapeCasts_S1x2048x64_S2048x64 t ⟨c'.val, h⟩
  · rw [dif_neg h]
    have hc : c'.val = 64 := by have := c'.isLt; omega
    refine (concatenate_pair_apply_right (t := S2048x65) (s₁ := S2048x64) (s₂ := S2048x1) (1 : Fin 2) _ _
      concatenates_S2048x64_S2048x1_S2048x65_d1 (ix2 t c') rfl rfl (ix2 t (0 : Fin 1)) (fun b hb => ?_) ?_).trans ?_
    · match b with
      | ⟨0, _⟩ => rfl
      | ⟨1, _⟩ => exact absurd rfl hb
    · show (0 : Fin 1).val + 64 = c'.val
      rw [hc]; rfl
    · exact ofBits_one_bf16

/-! ## The two contractions -/

theorem lhs_scores_0 (j : S1024x512.Idx) (q : dot_S1024x64_S64x512_S1024x512_1_0_0_1_n_n.contr.Idx) :
    (dot_S1024x64_S64x512_S1024x512_1_0_0_1_n_n.lhsIdx j q 0).val = (j 0).val := by
  unfold DotDims.lhsIdx
  rw [dif_neg (show ¬(0 : Fin S1024x64.rank) ∈ dot_S1024x64_S64x512_S1024x512_1_0_0_1_n_n.lhsBatch by decide), dif_pos (show (0 : Fin S1024x64.rank) ∈ dot_S1024x64_S64x512_S1024x512_1_0_0_1_n_n.lhsNonContracting by decide)]
  rfl
theorem lhs_scores_1 (j : S1024x512.Idx) (q : dot_S1024x64_S64x512_S1024x512_1_0_0_1_n_n.contr.Idx) :
    (dot_S1024x64_S64x512_S1024x512_1_0_0_1_n_n.lhsIdx j q 1).val = (q ⟨0, by decide⟩).val :=
  dot_S1024x64_S64x512_S1024x512_1_0_0_1_n_n.lhsIdx_val_of_single rfl j q
theorem rhs_scores_0 (j : S1024x512.Idx) (q : dot_S1024x64_S64x512_S1024x512_1_0_0_1_n_n.contr.Idx) :
    (dot_S1024x64_S64x512_S1024x512_1_0_0_1_n_n.rhsIdx j q 0).val = (q ⟨0, by decide⟩).val :=
  dot_S1024x64_S64x512_S1024x512_1_0_0_1_n_n.rhsIdx_val_of_single rfl j q
theorem rhs_scores_1 (j : S1024x512.Idx) (q : dot_S1024x64_S64x512_S1024x512_1_0_0_1_n_n.contr.Idx) :
    (dot_S1024x64_S64x512_S1024x512_1_0_0_1_n_n.rhsIdx j q 1).val = (j 1).val := by
  unfold DotDims.rhsIdx
  rw [dif_neg (show ¬(1 : Fin S64x512.rank) ∈ dot_S1024x64_S64x512_S1024x512_1_0_0_1_n_n.rhsBatch by decide), dif_pos (show (1 : Fin S64x512.rank) ∈ dot_S1024x64_S64x512_S1024x512_1_0_0_1_n_n.rhsNonContracting by decide)]
  rfl

/-- The scores of a chunk: entry (r, j) is the dot product of row `r` of the left factor with column `j` of the right. -/
theorem scores_apply (lhs : FVec Ideal S1024x64 .bf16) (rhs : FVec Ideal S64x512 .bf16) (r : Fin 1024) (j : Fin 512) :
    matmul dot_S1024x64_S64x512_S1024x512_1_0_0_1_n_n none lhs rhs (constant S1024x512 .f32 0x00000000#32) (ix2 r j)
      = ∑ d : Fin 64, lhs (ix2 r d) * rhs (ix2 d j) := by
  refine (Ideal.matmul_constant_zero_apply dot_S1024x64_S64x512_S1024x512_1_0_0_1_n_n none lhs rhs (ix2 r j)).trans ?_
  rw [← Equiv.sum_comp (contrEquiv1 dot_S1024x64_S64x512_S1024x512_1_0_0_1_n_n 64 rfl rfl).symm]
  refine Finset.sum_congr rfl fun d _ => ?_
  have hk := contrEquiv1_symm_val dot_S1024x64_S64x512_S1024x512_1_0_0_1_n_n 64 rfl rfl d
  have el : dot_S1024x64_S64x512_S1024x512_1_0_0_1_n_n.lhsIdx (ix2 r j) ((contrEquiv1 dot_S1024x64_S64x512_S1024x512_1_0_0_1_n_n 64 rfl rfl).symm d) = ix2 r d := funext fun a => Fin.ext (by
    match a with
    | ⟨0, _⟩ => exact lhs_scores_0 _ _
    | ⟨1, _⟩ => exact (lhs_scores_1 _ _).trans hk)
  have er : dot_S1024x64_S64x512_S1024x512_1_0_0_1_n_n.rhsIdx (ix2 r j) ((contrEquiv1 dot_S1024x64_S64x512_S1024x512_1_0_0_1_n_n 64 rfl rfl).symm d) = ix2 d j := funext fun a => Fin.ext (by
    match a with
    | ⟨0, _⟩ => exact (rhs_scores_0 _ _).trans hk
    | ⟨1, _⟩ => exact rhs_scores_1 _ _)
  rw [el, er]

theorem lhs_wsum_0 (j : S1024x65.Idx) (q : dot_S1024x512_S512x65_S1024x65_1_0_0_1_n_n.contr.Idx) :
    (dot_S1024x512_S512x65_S1024x65_1_0_0_1_n_n.lhsIdx j q 0).val = (j 0).val := by
  unfold DotDims.lhsIdx
  rw [dif_neg (show ¬(0 : Fin S1024x512.rank) ∈ dot_S1024x512_S512x65_S1024x65_1_0_0_1_n_n.lhsBatch by decide), dif_pos (show (0 : Fin S1024x512.rank) ∈ dot_S1024x512_S512x65_S1024x65_1_0_0_1_n_n.lhsNonContracting by decide)]
  rfl
theorem lhs_wsum_1 (j : S1024x65.Idx) (q : dot_S1024x512_S512x65_S1024x65_1_0_0_1_n_n.contr.Idx) :
    (dot_S1024x512_S512x65_S1024x65_1_0_0_1_n_n.lhsIdx j q 1).val = (q ⟨0, by decide⟩).val :=
  dot_S1024x512_S512x65_S1024x65_1_0_0_1_n_n.lhsIdx_val_of_single rfl j q
theorem rhs_wsum_0 (j : S1024x65.Idx) (q : dot_S1024x512_S512x65_S1024x65_1_0_0_1_n_n.contr.Idx) :
    (dot_S1024x512_S512x65_S1024x65_1_0_0_1_n_n.rhsIdx j q 0).val = (q ⟨0, by decide⟩).val :=
  dot_S1024x512_S512x65_S1024x65_1_0_0_1_n_n.rhsIdx_val_of_single rfl j q
theorem rhs_wsum_1 (j : S1024x65.Idx) (q : dot_S1024x512_S512x65_S1024x65_1_0_0_1_n_n.contr.Idx) :
    (dot_S1024x512_S512x65_S1024x65_1_0_0_1_n_n.rhsIdx j q 1).val = (j 1).val := by
  unfold DotDims.rhsIdx
  rw [dif_neg (show ¬(1 : Fin S512x65.rank) ∈ dot_S1024x512_S512x65_S1024x65_1_0_0_1_n_n.rhsBatch by decide), dif_pos (show (1 : Fin S512x65.rank) ∈ dot_S1024x512_S512x65_S1024x65_1_0_0_1_n_n.rhsNonContracting by decide)]
  rfl

/-- The weighted sum of a chunk: entry (r, c') is the sum over the chunk's keys of weight times augmented value. -/
theorem wsum_apply (lhs : FVec Ideal S1024x512 .bf16) (rhs : FVec Ideal S512x65 .bf16) (r : Fin 1024) (c' : Fin 65) :
    matmul dot_S1024x512_S512x65_S1024x65_1_0_0_1_n_n none lhs rhs (constant S1024x65 .f32 0x00000000#32) (ix2 r c')
      = ∑ j : Fin 512, lhs (ix2 r j) * rhs (ix2 j c') := by
  refine (Ideal.matmul_constant_zero_apply dot_S1024x512_S512x65_S1024x65_1_0_0_1_n_n none lhs rhs (ix2 r c')).trans ?_
  rw [← Equiv.sum_comp (contrEquiv1 dot_S1024x512_S512x65_S1024x65_1_0_0_1_n_n 512 rfl rfl).symm]
  refine Finset.sum_congr rfl fun d _ => ?_
  have hk := contrEquiv1_symm_val dot_S1024x512_S512x65_S1024x65_1_0_0_1_n_n 512 rfl rfl d
  have el : dot_S1024x512_S512x65_S1024x65_1_0_0_1_n_n.lhsIdx (ix2 r c') ((contrEquiv1 dot_S1024x512_S512x65_S1024x65_1_0_0_1_n_n 512 rfl rfl).symm d) = ix2 r d := funext fun a => Fin.ext (by
    match a with
    | ⟨0, _⟩ => exact lhs_wsum_0 _ _
    | ⟨1, _⟩ => exact (lhs_wsum_1 _ _).trans hk)
  have er : dot_S1024x512_S512x65_S1024x65_1_0_0_1_n_n.rhsIdx (ix2 r c') ((contrEquiv1 dot_S1024x512_S512x65_S1024x65_1_0_0_1_n_n 512 rfl rfl).symm d) = ix2 d c' := funext fun a => Fin.ext (by
    match a with
    | ⟨0, _⟩ => exact (rhs_wsum_0 _ _).trans hk
    | ⟨1, _⟩ => exact rhs_wsum_1 _ _)
  rw [el, er]

/-! ## One chunk, and the stored block -/

/-- One chunk at accumulator entry (r, c'). -/
theorem step_apply (x0 : Vec Ideal S1x1024x64 .f32) (acc : FVec Ideal S1024x65 .f32) (l1 : Vec Ideal S1x64x512 .f32)
    (l2 : Vec Ideal S512x65 .bf16) (r : Fin 1024) (c' : Fin 65) :
    k0_pay3 (F := Ideal) x0 acc l1 l2 (ix2 r c')
      = acc (ix2 r c') + ∑ j : Fin 512,
          Ideal.exp (∑ d : Fin 64, (x0 (ix3 (0 : Fin 1) r d) * ((1 / 8 : ℝ) : EReal)) * l1 (ix3 (0 : Fin 1) d j)) * l2 (ix2 j c') := by
  unfold k0_pay3
  refine congrArg (acc (ix2 r c') + ·) ?_
  refine (wsum_apply _ _ r c').trans (Finset.sum_congr rfl fun j _ => ?_)
  refine congrArg (· * l2 (ix2 j c')) ?_
  refine (congrArg Ideal.exp (scores_apply _ _ r j)).trans (congrArg Ideal.exp (Finset.sum_congr rfl fun d _ => ?_))
  show (shapeCast S1024x64 x0 shapeCasts_S1x1024x64_S1024x64 (ix2 r d) * Ideal.ofBits .f32 0x3E000000#32)
      * shapeCast S64x512 l1 shapeCasts_S1x64x512_S64x512 (ix2 d j) = _
  rw [shapeCast_1ab_ab_apply, shapeCast_1ab_ab_apply, ofBits_eighth]

/-- The stored block: accumulator entry (r, c) over accumulator entry (r, 64). -/
theorem out_apply (v10 : FVec Ideal S1024x65 .f32) (u : Fin 1) (r : Fin 1024) (c : Fin 64) :
    k0_pay4 (F := Ideal) v10 (ix3 u r c)
      = Ideal.div (v10 (ix2 r (⟨c.val, by omega⟩ : Fin 65))) (v10 (ix2 r (⟨64, by omega⟩ : Fin 65))) := by
  unfold k0_pay4
  refine (shapeCast_ab_1ab_apply _ shapeCasts_S1024x64_S1x1024x64 u r c).trans ?_
  rw [divf_apply]
  congr 1
  · exact extractStridedSlice_apply ![0, 0] v10 slices_S1024x65_o0_0_S1024x64 (ix2 r c) (ix2 r (⟨c.val, by omega⟩ : Fin 65))
      (fun a => by
        match a with
        | ⟨0, _⟩ => exact (Nat.zero_add _).symm
        | ⟨1, _⟩ => exact (Nat.zero_add _).symm)
  · refine (broadcastTo_apply _ broadcasts_S1024x1_S1024x64 (ix2 r c) (ix2 r (0 : Fin 1)) (fun a => ?_)).trans ?_
    · match a with
      | ⟨0, _⟩ => show r.val = if (1024 : ℕ) = 1 then 0 else r.val; rw [if_neg (by decide)]
      | ⟨1, _⟩ => show (0 : Fin 1).val = if (1 : ℕ) = 1 then 0 else c.val; rw [if_pos rfl]; rfl
    · exact extractStridedSlice_apply ![0, 64] v10 slices_S1024x65_o0_64_S1024x1 (ix2 r (0 : Fin 1)) (ix2 r (⟨64, by omega⟩ : Fin 65))
        (fun a => by
          match a with
          | ⟨0, _⟩ => exact (Nat.zero_add _).symm
          | ⟨1, _⟩ => rfl)

/-! ## The rectangles a chunk loads -/

/-- Chunk `n` reads key `n · 512 + j` at position `j`. -/
theorem ldK_apply (x1 : Vec Ideal S1x64x2048 .f32) (n : ℕ) (h : n < k0_t1_loop.trips) (d : Fin 64) (j : Fin 512)
    (t : Fin 2048) (ht : t.val = n * 512 + j.val) :
    View.ld x1 (kRect ⟨n, h⟩) (ix3 (0 : Fin 1) d j) = x1 (ix3 (0 : Fin 1) d t) := by
  show x1 ((kRect ⟨n, h⟩).idx (ix3 (0 : Fin 1) d j)) = _
  refine congrArg x1 (funext fun a => Fin.ext ?_)
  rw [LoadRect.idx_apply]
  show k0_off1 ⟨n, h⟩ a + 1 * (ix3 (0 : Fin 1) d j a).val = (ix3 (0 : Fin 1) d t a).val
  rw [k0_off1_eq ⟨n, h⟩]
  match a with
  | ⟨0, _⟩ => show 0 + 1 * (0 : Fin 1).val = (0 : Fin 1).val; omega
  | ⟨1, _⟩ => show 0 + 1 * d.val = d.val; omega
  | ⟨2, _⟩ => show 512 * n + 1 * j.val = t.val; omega

/-- Chunk `n` reads row `n · 512 + j` of the augmented values at position `j`. -/
theorem ldS_apply (S : Vec Ideal S2048x65 .bf16) (n : ℕ) (h : n < k0_t1_loop.trips) (j : Fin 512) (c' : Fin 65)
    (t : Fin 2048) (ht : t.val = n * 512 + j.val) :
    View.ld S (sRect ⟨n, h⟩) (ix2 j c') = S (ix2 t c') := by
  show S ((sRect ⟨n, h⟩).idx (ix2 j c')) = _
  refine congrArg S (funext fun a => Fin.ext ?_)
  rw [LoadRect.idx_apply]
  show k0_off2 ⟨n, h⟩ a + 1 * (ix2 j c' a).val = (ix2 t c' a).val
  rw [k0_off2_eq ⟨n, h⟩]
  match a with
  | ⟨0, _⟩ => show 512 * n + 1 * j.val = t.val; omega
  | ⟨1, _⟩ => show 0 + 1 * c'.val = c'.val; omega

/-! ## The accumulator over the chunks, and the stored block -/

section Block
variable (x0 : Vec Ideal S1x1024x64 .f32) (x1 : Vec Ideal S1x64x2048 .f32) (x2 : Vec Ideal S1x2048x64 .f32)

/-- The accumulator before chunk `n`, at entry (r, c'), is the blocked partial sum of the specification. -/
theorem acc_apply (r : Fin 1024) (c' : Fin 65) : ∀ n : ℕ, n ≤ 4 →
    chunkAcc (F := Ideal) x0 x1 (k0_pay1 x2) n (ix2 r c')
      = accBlocks (fun d => x0 (ix3 (0 : Fin 1) r d)) (fun d t => x1 (ix3 (0 : Fin 1) d t))
          (fun t c => x2 (ix3 (0 : Fin 1) t c)) n c'
  | 0, _ => by
    rw [accBlocks_zero]
    exact Ideal.ofBits_zero_f32
  | n + 1, hn => by
    have h : n < k0_t1_loop.trips := by rw [trips_eq]; omega
    rw [chunkAcc.eq_2, dif_pos h]
    unfold chunkStep
    rw [step_apply, acc_apply r c' n (by omega)]
    refine Eq.trans ?_ (accBlocks_succ _ _ _ n (by omega) c')
    refine congrArg (_ + ·) (Finset.sum_congr rfl fun j _ => ?_)
    rw [ldS_apply (k0_pay1 x2) n h j c' ⟨n * 512 + j.val, by have := j.isLt; omega⟩ rfl, aug_apply]
    refine congrArg (· * _) ?_
    unfold wtScaled
    refine congrArg Ideal.exp (Finset.sum_congr rfl fun d _ => ?_)
    rw [ldK_apply x1 n h d j ⟨n * 512 + j.val, by have := j.isLt; omega⟩ rfl]

/-- **The stored block is the blocked attention row** of the query row against the head's keys and values. -/
theorem bodyOut_apply (u : Fin 1) (r : Fin 1024) (c : Fin 64) :
    bodyOut (F := Ideal) x0 x1 (k0_pay1 x2) (ix3 u r c)
      = attnBlocked (fun d => x0 (ix3 (0 : Fin 1) r d)) (fun d t => x1 (ix3 (0 : Fin 1) d t))
          (fun t c => x2 (ix3 (0 : Fin 1) t c)) c := by
  unfold bodyOut attnBlocked
  rw [out_apply, trips_eq, acc_apply x0 x1 x2 r _ 4 le_rfl, acc_apply x0 x1 x2 r _ 4 le_rfl]

end Block

end Cert.KernelIdeal.BodyValue

end
-- ==== Proof.PointValue.lean ====
/-
  The kernel's result array.

  The grid has 64 points: point `t` works on head `t / 2` and on the half `t % 2` of its 2048 query rows.  The
  query block of point `t` is rows `1024 (t % 2) …` of head `t / 2`; the key block and the value block are the whole
  head, the same at both points of a head; the output block is where the query block is.

  At the first point of a head the body stores the head's augmented values in the scratch buffer; at the second
  point it finds them there, because the value block did not move.  So at EVERY point the body leaves in the output
  block the function `Body.bodyOut` of the point's three blocks (`out_point`), which at the exact instance is the
  blocked attention row of each of its query rows (`BodyValue.bodyOut_apply`).  Hence what point `t` writes back is
  block `t` of ONE function of the three arrays the region finds (`headsArray`); the 64 blocks tile the result array,
  so the array ends as that function.
-/
import proofs.«406530_j63960652972223_3_alg».proof.Proof.BodyValue
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.PointValue

open Cert.KernelIdeal Cert.KernelIdeal.Gen Cert.KernelIdeal.Body Cert.AttnSpec

/-! ## Where the blocks are -/

/-- The printed index maps, decided over the grid: head `t / 2`, half `t % 2`. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

section Generic
variable {F : FTy → Type} [FloatOps F]
variable (m : (ℓ : Loc nD τ sig) → Buf (Elt F) ℓ)

/-- The three input blocks of point `t`, at their literal types. -/
abbrev qB (c : Dev nD) (t : Fin cfg0.N) : Vec F S1x1024x64 .f32 := iblk m c 0 t
abbrev kB (c : Dev nD) (t : Fin cfg0.N) : Vec F S1x64x2048 .f32 := iblk m c 1 t
abbrev vB (c : Dev nD) (t : Fin cfg0.N) : Vec F S1x2048x64 .f32 := iblk m c 2 t

/-- The value block does not move between the two points of a head. -/
theorem vB_pred (c : Dev nD) (t : Fin cfg0.N) (h0 : ¬t.val % 2 = 0) :
    vB m c ⟨t.val - 1, Nat.lt_of_le_of_lt (Nat.sub_le _ _) t.isLt⟩ = vB m c t := by
  obtain ⟨-, -, -, -, -, -, e0, e1, e2, -⟩ := idx_facts t
  obtain ⟨-, -, -, -, -, -, p0, p1, p2, -⟩ := idx_facts ⟨t.val - 1, Nat.lt_of_le_of_lt (Nat.sub_le _ _) t.isLt⟩
  funext y
  show V m c main_v2 (((cfg0.win 2).blk ⟨t.val - 1, Nat.lt_of_le_of_lt (Nat.sub_le _ _) t.isLt⟩).view.emb y)
    = V m c main_v2 (((cfg0.win 2).blk t).view.emb y)
  refine congrArg (V m c main_v2) (funext fun a => Fin.ext ?_)
  match a with
  | ⟨0, _⟩ =>
    show win0_2.index ⟨t.val - 1, _⟩ (0 : Fin 3) * 1 + 1 * (y 0).val = win0_2.index t (0 : Fin 3) * 1 + 1 * (y 0).val
    rw [e0, p0]; dsimp only; omega
  | ⟨1, _⟩ =>
    show win0_2.index ⟨t.val - 1, _⟩ (1 : Fin 3) * 2048 + 1 * (y 1).val = win0_2.index t (1 : Fin 3) * 2048 + 1 * (y 1).val
    rw [e1, p1]
  | ⟨2, _⟩ =>
    show win0_2.index ⟨t.val - 1, _⟩ (2 : Fin 3) * 64 + 1 * (y 2).val = win0_2.index t (2 : Fin 3) * 64 + 1 * (y 2).val
    rw [e2, p2]

/-- After the first point of a head the scratch buffer holds the head's augmented values. -/
theorem scratch_even (c : Dev nD) (n : ℕ) (hn : n < cfg0.N) (h0 : n % 2 = 0) :
    (outsAt0 m c n hn).2 = k0_pay1 (vB m c ⟨n, hn⟩) := by
  rw [show outsAt0 m c n hn = outsAt0 m c (⟨n, hn⟩ : Fin cfg0.N).val (⟨n, hn⟩ : Fin cfg0.N).isLt from rfl,
    outsAt0_A m c ⟨n, hn⟩ h0]
  dsimp only
  exact scratch_A (F := F) c (grid0.coords ⟨n, hn⟩) (ms0_0 ⟨n, hn⟩) (hs0_0 ⟨n, hn⟩) (ms0_1 ⟨n, hn⟩) (hs0_1 ⟨n, hn⟩)
    (ms0_2 ⟨n, hn⟩) (hs0_2 ⟨n, hn⟩) (ms0_3 ⟨n, hn⟩) (hs0_3 ⟨n, hn⟩) scM0_0 (Memref.isWhole_whole _)
    ((hcond0_0 ⟨n, hn⟩).mpr h0) (iblk m c 0 ⟨n, hn⟩) (iblk m c 1 ⟨n, hn⟩) (iblk m c 2 ⟨n, hn⟩)

/-- **At every point** the body leaves in the output block `bodyOut` of the point's query block, key block and
    augmented value block. -/
theorem out_point (c : Dev nD) (t : Fin cfg0.N) :
    (outsAt0 m c t.val t.isLt).1 = bodyOut (qB m c t) (kB m c t) (k0_pay1 (vB m c t)) := by
  by_cases h0 : t.val % 2 = 0
  · rw [outsAt0_A m c t h0]
    dsimp only
    exact out_A (F := F) c (grid0.coords t) (ms0_0 t) (hs0_0 t) (ms0_1 t) (hs0_1 t) (ms0_2 t) (hs0_2 t) (ms0_3 t) (hs0_3 t)
      scM0_0 (Memref.isWhole_whole _) ((hcond0_0 t).mpr h0) (iblk m c 0 t) (iblk m c 1 t) (iblk m c 2 t)
  · rw [outsAt0_B m c t h0]
    dsimp only
    refine (out_B (F := F) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2).trans ?_
    rw [scratch_even m c (t.val - 1) (Nat.lt_of_le_of_lt (Nat.sub_le _ _) t.isLt) (by omega), vB_pred m c t h0]

end Generic

/-! ## The blocks and the array, on the extended reals -/

section Exact
variable (m : (ℓ : Loc nD τ sig) → Buf (Elt Ideal) ℓ) (ρ : Dev nD → PrngReg)

/-- Entry (b, r, c) of the result as a function of three arrays [32, 2048, 64], [32, 64, 2048], [32, 2048, 64]:
    the blocked attention row of query row `r` of head `b`. -/
def headsAt (Q : S32x2048x64.Idx → EReal) (K : S32x64x2048.Idx → EReal) (W : S32x2048x64.Idx → EReal)
    (b : Fin 32) (r : Fin 2048) (c : Fin 64) : EReal :=
  attnBlocked (fun d => Q (ix3 b r d)) (fun d t => K (ix3 b d t)) (fun t c' => W (ix3 b t c')) c

/-- The whole result array [32, 2048, 64]. -/
def headsArray (Q : S32x2048x64.Idx → EReal) (K : S32x64x2048.Idx → EReal) (W : S32x2048x64.Idx → EReal) :
    S32x2048x64.Idx → EReal :=
  fun i => headsAt Q K W (i 0) (i 1) (i 2)

/-- Query block entry (r, d) of point `t`. -/
theorem qB_apply (c : Dev nD) (t : Fin cfg0.N) (u : Fin 1) (r : Fin 1024) (d : Fin 64) (b : Fin 32) (r' : Fin 2048)
    (hb : b.val = t.val / 2) (hr : r'.val = t.val % 2 * 1024 + r.val) :
    qB m c t (ix3 u r d) = V m c main_v0 (ix3 b r' d) := by
  obtain ⟨e0, e1, e2, -⟩ := idx_facts t
  show V m c main_v0 (((cfg0.win 0).blk t).view.emb (ix3 u r d)) = _
  refine congrArg (V m c main_v0) (funext fun a => Fin.ext ?_)
  match a with
  | ⟨0, _⟩ => show win0_0.index t (0 : Fin 3) * 1 + 1 * u.val = b.val; rw [e0, hb]; omega
  | ⟨1, _⟩ => show win0_0.index t (1 : Fin 3) * 1024 + 1 * r.val = r'.val; rw [e1, hr]; omega
  | ⟨2, _⟩ => show win0_0.index t (2 : Fin 3) * 64 + 1 * d.val = d.val; rw [e2]; omega

/-- Key block entry (d, t') of point `t`. -/
theorem kB_apply (c : Dev nD) (t : Fin cfg0.N) (u : Fin 1) (d : Fin 64) (t' : Fin 2048) (b : Fin 32)
    (hb : b.val = t.val / 2) :
    kB m c t (ix3 u d t') = V m c main_v1 (ix3 b d t') := by
  obtain ⟨-, -, -, e0, e1, e2, -⟩ := idx_facts t
  show V m c main_v1 (((cfg0.win 1).blk t).view.emb (ix3 u d t')) = _
  refine congrArg (V m c main_v1) (funext fun a => Fin.ext ?_)
  match a with
  | ⟨0, _⟩ => show win0_1.index t (0 : Fin 3) * 1 + 1 * u.val = b.val; rw [e0, hb]; omega
  | ⟨1, _⟩ => show win0_1.index t (1 : Fin 3) * 64 + 1 * d.val = d.val; rw [e1]; omega
  | ⟨2, _⟩ => show win0_1.index t (2 : Fin 3) * 2048 + 1 * t'.val = t'.val; rw [e2]; omega

/-- Value block entry (t', c') of point `t`. -/
theorem vB_apply (c : Dev nD) (t : Fin cfg0.N) (u : Fin 1) (t' : Fin 2048) (c' : Fin 64) (b : Fin 32)
    (hb : b.val = t.val / 2) :
    vB m c t (ix3 u t' c') = V m c main_v2 (ix3 b t' c') := by
  obtain ⟨-, -, -, -, -, -, e0, e1, e2, -⟩ := idx_facts t
  show V m c main_v2 (((cfg0.win 2).blk t).view.emb (ix3 u t' c')) = _
  refine congrArg (V m c main_v2) (funext fun a => Fin.ext ?_)
  match a with
  | ⟨0, _⟩ => show win0_2.index t (0 : Fin 3) * 1 + 1 * u.val = b.val; rw [e0, hb]; omega
  | ⟨1, _⟩ => show win0_2.index t (1 : Fin 3) * 2048 + 1 * t'.val = t'.val; rw [e1]; omega
  | ⟨2, _⟩ => show win0_2.index t (2 : Fin 3) * 64 + 1 * c'.val = c'.val; rw [e2]; omega

/-- WHAT POINT `t` WRITES BACK is block `t` of `headsArray` of the three arrays the region finds. -/
theorem flushed_eq (c : Dev nD) (t : Fin cfg0.N) :
    (dats m 0 c).flushed 3 t
      = ((cfg0.win 3).blk t).view.read (Elt Ideal) (headsArray (V m c main_v0) (V m c main_v1) (V m c main_v2)) := by
  have hN : cfg0.N = 64 := N_0
  have htN : t.val < 64 := lt_of_lt_of_eq t.isLt hN
  show (cfg0.win 3).cut (grid0.coords t) ((dats m 0 c).after 3 t) = _
  rw [after0_3, out_point]
  obtain ⟨-, -, -, -, -, -, -, -, -, e0, e1, e2⟩ := idx_facts t
  funext y
  obtain ⟨u, r, cc, rfl⟩ : ∃ (u : Fin 1) (r : Fin 1024) (cc : Fin 64), y = ix3 u r cc := ⟨y 0, y 1, y 2, eq_ix3 y⟩
  have hu : u.val = 0 := by omega
  let b : Fin 32 := ⟨t.val / 2, by omega⟩
  let r' : Fin 2048 := ⟨t.val % 2 * 1024 + r.val, by have := r.isLt; omega⟩
  have hemb : ((cfg0.win 3).blk t).view.emb (ix3 u r cc) = ix3 b r' cc := by
    funext a; apply Fin.ext
    match a with
    | ⟨0, _⟩ => show win0_3.index t (0 : Fin 3) * 1 + 1 * u.val = t.val / 2; rw [e0]; omega
    | ⟨1, _⟩ => show win0_3.index t (1 : Fin 3) * 1024 + 1 * r.val = t.val % 2 * 1024 + r.val; rw [e1]; omega
    | ⟨2, _⟩ => show win0_3.index t (2 : Fin 3) * 64 + 1 * cc.val = cc.val; rw [e2]; omega
  show bodyOut (F := Ideal) (qB m c t) (kB m c t) (k0_pay1 (vB m c t)) (ix3 u r cc)
    = headsArray (V m c main_v0) (V m c main_v1) (V m c main_v2) (((cfg0.win 3).blk t).view.emb (ix3 u r cc))
  rw [hemb, Cert.KernelIdeal.BodyValue.bodyOut_apply]
  have hq : (fun d : Fin 64 => qB m c t (ix3 (0 : Fin 1) r d)) = fun d => V m c main_v0 (ix3 b r' d) :=
    funext fun d => qB_apply m c t 0 r d b r' rfl rfl
  have hk : (fun (d : Fin 64) (t' : Fin 2048) => kB m c t (ix3 (0 : Fin 1) d t')) = fun d t' => V m c main_v1 (ix3 b d t') :=
    funext fun d => funext fun t' => kB_apply m c t 0 d t' b rfl
  have hv : (fun (t' : Fin 2048) (c' : Fin 64) => vB m c t (ix3 (0 : Fin 1) t' c')) = fun t' c' => V m c main_v2 (ix3 b t' c') :=
    funext fun t' => funext fun c' => vB_apply m c t 0 t' c' b rfl
  show attnBlocked (fun d : Fin 64 => qB m c t (ix3 (0 : Fin 1) r d))
      (fun (d : Fin 64) (t' : Fin 2048) => kB m c t (ix3 (0 : Fin 1) d t'))
      (fun (t' : Fin 2048) (c' : Fin 64) => vB m c t (ix3 (0 : Fin 1) t' c')) cc
    = attnBlocked (fun d => V m c main_v0 (ix3 b r' d)) (fun d t' => V m c main_v1 (ix3 b d t'))
      (fun t' c' => V m c main_v2 (ix3 b t' c')) cc
  rw [hq, hk, hv]

/-- An index of the array is in point `t`'s block iff each coordinate is in the block's range on its axis. -/
theorem mem_blk (t : Fin cfg0.N) (i : S32x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v3).slice (win0_3.rect t)).set ↔ _
  rw [View.set_slice_whole, Rect.mem_set_unit]
  exact Iff.rfl

/-- Every entry of the result array is in the block of the point of its head and half. -/
theorem cover (i : S32x2048x64.Idx) :
    ∃ t : Fin cfg0.N, (cfg0.win 3).flush t = true ∧ i ∈ ((cfg0.win 3).blk t).view.set := by
  have hN : cfg0.N = 64 := N_0
  have h0 : (i 0).val < 32 := (i 0).isLt
  have h1 : (i 1).val < 2048 := (i 1).isLt
  have h2 : (i 2).val < 64 := (i 2).isLt
  let t : Fin cfg0.N := ⟨2 * (i 0).val + (i 1).val / 1024, by rw [hN]; omega⟩
  obtain ⟨-, -, -, -, -, -, -, -, -, e0, e1, e2⟩ := idx_facts t
  have tv : t.val = 2 * (i 0).val + (i 1).val / 1024 := rfl
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    rw [e0, tv]; omega
  | ⟨1, _⟩ =>
    show win0_3.index t (1 : Fin 3) * 1024 ≤ (i 1).val ∧ (i 1).val < win0_3.index t (1 : Fin 3) * 1024 + 1024
    rw [e1, tv]; omega
  | ⟨2, _⟩ =>
    show win0_3.index t (2 : Fin 3) * 64 ≤ (i 2).val ∧ (i 2).val < win0_3.index t (2 : Fin 3) * 64 + 64
    rw [e2]; omega

/-- **The result array after the region** is `headsArray` of the three arrays the region finds. -/
theorem final (c : Dev nD) :
    (dats m 0 c).arrAt 3 cfg0.N = headsArray (V m c main_v0) (V m c main_v1) (V m c main_v2) :=
  (dats m 0 c).arrAt_eq_of_cover 3 (headsArray (V m c main_v0) (V m c main_v1) (V m c main_v2))
    (fun t _ => flushed_eq m c t) (cover)

end Exact

end Cert.KernelIdeal.PointValue

end
-- ==== Proof.KernelRun.lean ====
/-
  The whole kernel program computes the attention array.

  Before the region the program merges batch and head of each argument into one axis of 32 heads (three
  reshapes); after it, it splits the 32 heads of the result back into batch and head (one reshape).  A reshape
  keeps the row-major position, so head `b = 16 a + h` of a merged array is (batch `a`, head `h`) of the argument,
  entry for entry.  With the region's result `PointValue.headsArray` of the merged arrays, the program's result at
  (a, h, r, c) is the blocked attention row of query row (a, h, r) against the keys and values of head (a, h);
  for finite queries and keys that is the textbook row (`AttnSpec.attnBlocked_eq`), that is `AttnArray.attnArray`.
-/
import proofs.«406530_j63960652972223_3_alg».proof.Proof.PointValue
import proofs.«406530_j63960652972223_3_alg».proof.Proof.AttnArray
import Idealize.ShloMosaic.Lib.StableHlo.Run
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Run

open Cert.KernelIdeal Cert.KernelIdeal.Gen Cert.KernelIdeal.PointValue Cert.AttnSpec Cert.AttnArray

variable (m : (ℓ : Loc nD τ sig) → Buf (Elt Ideal) ℓ) (ρ : Dev nD → PrngReg)

/-! ## The reshapes around the region -/

/-- The queries the region finds: the first argument with batch and head merged. -/
theorem Vq_eq (c : Dev nD) : (V m c main_v0 : S32x2048x64.Idx → EReal)
    = shapeCast S32x2048x64 (m ((c : Thread nD τ).loc main_arg0)) shapeCasts_S2x16x2048x64_S32x2048x64 := by
  show StableHlo.after hostOps0 (fun b => m (c, b)) (Proc.devRef .tc main_v0) = _
  after_results
  rfl

/-- The keys the region finds: the second argument with batch and head merged. -/
theorem Vk_eq (c : Dev nD) : (V m c main_v1 : S32x64x2048.Idx → EReal)
    = shapeCast S32x64x2048 (m ((c : Thread nD τ).loc main_arg1)) shapeCasts_S2x16x64x2048_S32x64x2048 := by
  show StableHlo.after hostOps0 (fun b => m (c, b)) (Proc.devRef .tc main_v1) = _
  after_results
  rfl

/-- The values the region finds: the third argument with batch and head merged. -/
theorem Vv_eq (c : Dev nD) : (V m c main_v2 : S32x2048x64.Idx → EReal)
    = shapeCast S32x2048x64 (m ((c : Thread nD τ).loc main_arg2)) shapeCasts_S2x16x2048x64_S32x2048x64 := by
  show StableHlo.after hostOps0 (fun b => m (c, b)) (Proc.devRef .tc main_v2) = _
  after_results
  rfl

/-- Head `16 a + h` of a merged [32, 2048, 64] array is (a, h) of the [2, 16, 2048, 64] array. -/
theorem merged_apply (x : S2x16x2048x64.Idx → EReal) (a : Fin 2) (h : Fin 16) (r : Fin 2048) (d : Fin 64) (b : Fin 32)
    (hb : b.val = a.val * 16 + h.val) :
    shapeCast S32x2048x64 x shapeCasts_S2x16x2048x64_S32x2048x64 (ix3 b r d) = x (ix4 a h r d) :=
  shapeCast_apply x _ _ _ (by
    rw [Shape.rowMajor_val_four, Shape.rowMajor_val_three]
    show ((a.val * 16 + h.val) * 2048 + r.val) * 64 + d.val = (b.val * 2048 + r.val) * 64 + d.val
    rw [hb])

/-- The same for the keys' layout [2, 16, 64, 2048]. -/
theorem merged_apply_k (x : S2x16x64x2048.Idx → EReal) (a : Fin 2) (h : Fin 16) (d : Fin 64) (t : Fin 2048) (b : Fin 32)
    (hb : b.val = a.val * 16 + h.val) :
    shapeCast S32x64x2048 x shapeCasts_S2x16x64x2048_S32x64x2048 (ix3 b d t) = x (ix4 a h d t) :=
  shapeCast_apply x _ _ _ (by
    rw [Shape.rowMajor_val_four, Shape.rowMajor_val_three]
    show ((a.val * 16 + h.val) * 64 + d.val) * 2048 + t.val = (b.val * 64 + d.val) * 2048 + t.val
    rw [hb])

/-- Splitting the heads back: (a, h) of the split array is head `16 a + h` of the [32, 2048, 64] array. -/
theorem split_apply (x : S32x2048x64.Idx → EReal) (a : Fin 2) (h : Fin 16) (r : Fin 2048) (d : Fin 64) (b : Fin 32)
    (hb : b.val = a.val * 16 + h.val) :
    shapeCast S2x16x2048x64 x shapeCasts_S32x2048x64_S2x16x2048x64 (ix4 a h r d) = x (ix3 b r d) :=
  shapeCast_apply x _ _ _ (by
    rw [Shape.rowMajor_val_four, Shape.rowMajor_val_three]
    show (b.val * 2048 + r.val) * 64 + d.val = ((a.val * 16 + h.val) * 2048 + r.val) * 64 + d.val
    rw [hb])

/-! ## The program's result -/

/-- The result buffer after the last reshape: the region's result array with the heads split. -/
theorem tail_eq (c : Dev nD) :
    Pipeline.afterTail₀ cfgs (dats m) 0 (V0 m) [hostOps1] c main_v4
      = shapeCast S2x16x2048x64 (headsArray (V m c main_v0) (V m c main_v1) (V m c main_v2))
          shapeCasts_S32x2048x64_S2x16x2048x64 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = headsArray (V m c main_v0) (V m c main_v1) (V m c main_v2) :=
    (Pipeline.withArrays_arr spec0 launch0.win.arr_inj c _ _ 3).trans (final m c)
  rw [hw]
  rfl

/-- The program's result at (a, h, r, c): the blocked attention row of query row (a, h, r) against head (a, h). -/
theorem result_apply (c : Dev nD) (a : Fin 2) (h : Fin 16) (r : Fin 2048) (cc : Fin 64) :
    shapeCast S2x16x2048x64 (headsArray (V m c main_v0) (V m c main_v1) (V m c main_v2))
        shapeCasts_S32x2048x64_S2x16x2048x64 (ix4 a h r cc)
      = attnBlocked (fun d => m ((c : Thread nD τ).loc main_arg0) (ix4 a h r d))
          (fun d t => m ((c : Thread nD τ).loc main_arg1) (ix4 a h d t))
          (fun t c' => m ((c : Thread nD τ).loc main_arg2) (ix4 a h t c')) cc := by
  let b : Fin 32 := ⟨a.val * 16 + h.val, by have := a.isLt; have := h.isLt; omega⟩
  rw [split_apply _ a h r cc b rfl]
  show attnBlocked (fun d => V m c main_v0 (ix3 b r d)) (fun d t => V m c main_v1 (ix3 b d t))
    (fun t c' => V m c main_v2 (ix3 b t c')) cc = _
  have hq : (fun d : Fin 64 => V m c main_v0 (ix3 b r d)) = fun d => m ((c : Thread nD τ).loc main_arg0) (ix4 a h r d) :=
    funext fun d => by rw [Vq_eq]; exact merged_apply _ a h r d b rfl
  have hk : (fun (d : Fin 64) (t : Fin 2048) => V m c main_v1 (ix3 b d t))
      = fun d t => m ((c : Thread nD τ).loc main_arg1) (ix4 a h d t) :=
    funext fun d => funext fun t => by rw [Vk_eq]; exact merged_apply_k _ a h d t b rfl
  have hv : (fun (t : Fin 2048) (c' : Fin 64) => V m c main_v2 (ix3 b t c'))
      = fun t c' => m ((c : Thread nD τ).loc main_arg2) (ix4 a h t c') :=
    funext fun t => funext fun c' => by rw [Vv_eq]; exact merged_apply _ a h t c' b rfl
  rw [hq, hk, hv]

/-- **The program's result is the attention array** of its arguments, when the queries and the keys are finite. -/
theorem result_eq (c : Dev nD)
    (hq : ∀ i, Fin' (m ((c : Thread nD τ).loc main_arg0) i)) (hk : ∀ i, Fin' (m ((c : Thread nD τ).loc main_arg1) i)) :
    shapeCast S2x16x2048x64 (headsArray (V m c main_v0) (V m c main_v1) (V m c main_v2))
        shapeCasts_S32x2048x64_S2x16x2048x64
      = attnArray (m ((c : Thread nD τ).loc main_arg0)) (m ((c : Thread nD τ).loc main_arg1))
          (m ((c : Thread nD τ).loc main_arg2)) := by
  funext i
  obtain ⟨a, h, r, cc, rfl⟩ : ∃ (a : Fin 2) (h : Fin 16) (r : Fin 2048) (cc : Fin 64), i = ix4 a h r cc :=
    ⟨i 0, i 1, i 2, i 3, eq_ix4 i⟩
  rw [result_apply, attnArray_apply]
  exact attnBlocked_eq _ _ _ (fun d => hq _) (fun d t => hk _) cc

/-- The run, read: the result buffer at the attention array of the arguments, the arguments unchanged. -/
theorem run (hfin : ∀ c : Dev nD, (∀ i, Fin' (m ((c : Thread nD τ).loc main_arg0) i)) ∧ (∀ i, Fin' (m ((c : Thread nD τ).loc main_arg1) i))) :
    θ_run defs (onTc (τ := τ) (main (F := Ideal))) ⟨m, fun _ => 0, ρ⟩ fun r => ∀ c : Dev nD,
      r.2.mem ((c.tc : Thread nD τ).loc main_v4)
          = attnArray (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans
        ((tail_eq m c).trans (result_eq m c (hfin c).1 (hfin c).2)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.Finite.lean ====
/-
  The precondition, read back: every query and every key is a real number.

  The precondition is the conjunction of three `all`s, one per argument array, each of "the absolute value of the
  entry is below +∞".  A conjunction that is 1 has both conjuncts 1; an `all` (a reduction by `and` over every
  axis) that is 1 had a 1 at every entry; and an extended real whose absolute value is below +∞ is neither
  infinity.  Only the queries and the keys are needed.
-/
import proofs.«406530_j63960652972223_3_alg».proof.Pre_finite_inputs
import proofs.«406530_j63960652972223_3_alg».proof.Proof.AttnSpec
import Idealize.ShloMosaic.Lib.ReduceAll
import Idealize.ShloMosaic.Lib.ValueIdx

noncomputable section

open Idealize.ShloMosaic

namespace Cert.FiniteInputs

open Cert.Pre_finite_inputs Cert.AttnSpec

instance : Subsingleton S_.Idx := ⟨fun a b => funext fun d => d.elim0⟩

/-- The f32 pattern of +∞ denotes the top of the extended reals. -/
theorem ofBits_inf : Ideal.ofBits .f32 0x7F800000#32 = ⊤ := by simp [Ideal.ofBits, Ideal.ieee]

/-- An extended real whose absolute value is below +∞ is a real number. -/
theorem fin_of_abs_lt (x : EReal) (h : Ideal.cmp .olt (max x (-x)) (Ideal.ofBits .f32 0x7F800000#32) = 1#1) : Fin' x := by
  rw [ofBits_inf] at h
  induction x using EReal.rec with
  | bot => simp [Ideal.cmp] at h
  | top => simp [Ideal.cmp] at h
  | coe r => exact ⟨EReal.coe_ne_bot r, EReal.coe_ne_top r⟩

/-- Under the precondition every query entry and every key entry is finite. -/
theorem finite_of_pre [Facts] (q : FVec Ideal S2x16x2048x64 .f32) (k : FVec Ideal S2x16x64x2048 .f32)
    (v : FVec Ideal S2x16x2048x64 .f32) (h : fn (F := Ideal) q k v = fun _ => 1#1) :
    (∀ i, Fin' (q i)) ∧ (∀ i, Fin' (k i)) := by
  have h0 := congrFun h ValueIdx.ix0
  dsimp only [fn] at h0
  obtain ⟨h1, -⟩ := IntOp.andi_eq_one.1 h0
  obtain ⟨hq, hk⟩ := IntOp.andi_eq_one.1 h1
  exact ⟨fun i => fin_of_abs_lt _ (Host.reduce_andi_all _ _ _ _ _ hq i),
    fun i => fin_of_abs_lt _ (Host.reduce_andi_all _ _ _ _ _ hk i)⟩

end Cert.FiniteInputs

end
-- ==== Proof.lean ====
/-
  Self-attention without max-subtraction: a Pallas kernel against its jnp reference, over the extended reals.

  For queries `q` [2, 16, 2048, 64], keys `k` [2, 16, 64, 2048] (stored feature-major) and values `v`
  [2, 16, 2048, 64], entry (a, h, r, c) of the result is

      (∑ₜ wₜ · v[a, h, t, c]) / (∑ₜ wₜ),      wₜ = exp ((∑_d q[a, h, r, d] · k[a, h, d, t]) / 8).

  The reference computes exactly this (`AttnRef.ref_eq`: two batched products, an exponential, a row sum from zero,
  a quotient).  The kernel works head by head on two blocks of 1024 query rows.  It scales each query by 1/8 BEFORE the
  score product, appends a column of ones to the head's values (once per head, kept in a scratch buffer for the
  head's second block), accumulates weights times augmented values over four chunks of 512 keys from a zero
  accumulator, and divides the first 64 columns of the accumulator by its column 64.  On the extended reals the
  order of a sum, the product with one and the zero start change nothing, and moving the factor 1/8 across the score
  product is distributivity, which holds because the precondition makes every query and key a real number
  (`AttnSpec.attnBlocked_eq`, `FiniteInputs.finite_of_pre`).  The values need no finiteness.

  The three programs' frames are the generated ones (the reference's is its run with the result dropped); the
  idealization rewrote nothing, so `preserves` is trivial.
-/
import proofs.«406530_j63960652972223_3_alg».proof.Defs
import proofs.«406530_j63960652972223_3_alg».proof.Proof.Gen.Kernel
import proofs.«406530_j63960652972223_3_alg».proof.Proof.Gen.Kernel.Skeleton
import proofs.«406530_j63960652972223_3_alg».proof.Proof.Gen.Kernel.Loops
import proofs.«406530_j63960652972223_3_alg».proof.Proof.Gen.Kernel.Launch
import proofs.«406530_j63960652972223_3_alg».proof.Proof.Gen.Kernel.Points
import proofs.«406530_j63960652972223_3_alg».proof.Proof.Gen.Kernel.Frame
import proofs.«406530_j63960652972223_3_alg».proof.Proof.Gen.KernelIdeal
import proofs.«406530_j63960652972223_3_alg».proof.Proof.Gen.KernelIdeal.Skeleton
import proofs.«406530_j63960652972223_3_alg».proof.Proof.Gen.KernelIdeal.Loops
import proofs.«406530_j63960652972223_3_alg».proof.Proof.Gen.KernelIdeal.Launch
import proofs.«406530_j63960652972223_3_alg».proof.Proof.Gen.KernelIdeal.Points
import proofs.«406530_j63960652972223_3_alg».proof.Proof.Gen.KernelIdeal.Frame
import proofs.«406530_j63960652972223_3_alg».proof.Proof.Gen.ReferenceIdeal
import proofs.«406530_j63960652972223_3_alg».proof.Proof.Gen.Pre_finite_inputs
import proofs.«406530_j63960652972223_3_alg».proof.Proof.Gen.ReferenceIdeal.Run
import proofs.«406530_j63960652972223_3_alg».proof.Proof.Gen.ReferenceIdeal.Read
import proofs.«406530_j63960652972223_3_alg».proof.Proof.AttnRef
import proofs.«406530_j63960652972223_3_alg».proof.Proof.KernelRun
import proofs.«406530_j63960652972223_3_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From arguments that agree and are finite, both programs end with the attention array of the arguments. -/
theorem algebraic : Cert.algebraic_KernelIdeal_ReferenceIdeal := by
  intro m ρ m' ρ' hpre hagree
  have hfin := fun c => Cert.FiniteInputs.finite_of_pre _ _ _ (hpre c)
  refine ⟨_, Cert.KernelIdeal.Run.run m ρ hfin, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.AttnRef.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
